-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S1000x512 : Shape := ⟨2, ![1000, 512]⟩
abbrev S_ : Shape := ⟨0, ![]⟩
abbrev S32768 : Shape := ⟨1, ![32768]⟩
abbrev S1000 : Shape := ⟨1, ![1000]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_
  reducesTo_S32768x512_S32768_d1 : S32768x512.ReducesTo [1] S32768
  bcast_S_S32768 : S_.BroadcastsInDim S32768 (![] : Fin 0 → Fin S32768.rank)
  reducesTo_S32768_S_d0 : S32768.ReducesTo [0] S_
  reducesTo_S1000x512_S1000_d1 : S1000x512.ReducesTo [1] S1000
  bcast_S_S1000 : S_.BroadcastsInDim S1000 (![] : Fin 0 → Fin S1000.rank)
  reducesTo_S1000_S_d0 : S1000.ReducesTo [0] S_

variable [Facts]

def fn_part1 {F : FTy → Type} [FloatOps F] (main_v14 : IVec S_ 1) (main_v15 : FVec F S1000x512 .f32) (main_cst_5 : FVec F S_ .f32) : IVec S_ 1 :=
  let main_v16 : FVec F S1000 .f32 := (fun x v => Host.reduceAdd x v reducesTo_S1000x512_S1000_d1 h_S_) main_v15 main_cst_5
  let main_cst_6 : FVec F S_ .f32 := constant S_ .f32 0x00000000#32
  let main_v17 : FVec F S1000 .f32 := broadcastInDim S1000 ![] bcast_S_S1000 main_cst_6
  let main_v18 : IVec S1000 1 := cmpf .ogt main_v16 main_v17
  let main_c_7 : IVec S_ 1 := constantI S_ 1 1#1
  let main_v19 : IVec S_ 1 := (fun x v => Host.reduce IntOp.andi x v reducesTo_S1000_S_d0 h_S_) main_v18 main_c_7
  let main_v20 : IVec S_ 1 := andi main_v14 main_v19
  main_v20

def fn {F : FTy → Type} [FloatOps F] (main_arg0 : FVec F S32768x512 .f32) (main_arg1 : FVec F S1000x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S1000x512 .f32 := Host.absf main_arg1
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  let main_v9 : FVec F S32768x512 .f32 := mulf main_arg0 main_arg0
  let main_cst_2 : FVec F S_ .f32 := constant S_ .f32 0x00000000#32
  let main_v10 : FVec F S32768 .f32 := (fun x v => Host.reduceAdd x v reducesTo_S32768x512_S32768_d1 h_S_) main_v9 main_cst_2
  let main_cst_3 : FVec F S_ .f32 := constant S_ .f32 0x00000000#32
  let main_v11 : FVec F S32768 .f32 := broadcastInDim S32768 ![] bcast_S_S32768 main_cst_3
  let main_v12 : IVec S32768 1 := cmpf .ogt main_v10 main_v11
  let main_c_4 : IVec S_ 1 := constantI S_ 1 1#1
  let main_v13 : IVec S_ 1 := (fun x v => Host.reduce IntOp.andi x v reducesTo_S32768_S_d0 h_S_) main_v12 main_c_4
  let main_v14 : IVec S_ 1 := andi main_v8 main_v13
  let main_v15 : FVec F S1000x512 .f32 := mulf main_arg1 main_arg1
  let main_cst_5 : FVec F S_ .f32 := constant S_ .f32 0x00000000#32
  fn_part1 (F := F) main_v14 main_v15 main_cst_5
-- ==== Kernel.lean ====
abbrev S32768x512 : Shape := ⟨2, ![32768, 512]⟩
abbrev S1000x512 : Shape := ⟨2, ![1000, 512]⟩
abbrev S512x1000 : Shape := ⟨2, ![512, 1000]⟩
abbrev S_ : Shape := ⟨0, ![]⟩
abbrev S1000 : Shape := ⟨1, ![1000]⟩
abbrev S1x1000 : Shape := ⟨2, ![1, 1000]⟩
abbrev S32768x1000 : Shape := ⟨2, ![32768, 1000]⟩
abbrev S2048x512 : Shape := ⟨2, ![2048, 512]⟩
abbrev S2048x1000 : Shape := ⟨2, ![2048, 1000]⟩
abbrev S2048 : Shape := ⟨1, ![2048]⟩
abbrev S2048x1 : Shape := ⟨2, ![2048, 1]⟩

abbrev nBuf : Space → Nat
  | .hbm => 12
  | .vmem => 6
  | .smem => 0
  | _ => 0

abbrev bufTy : (tb : Table) → Fin (tcTables nBuf tb) → BufTy
  | .hbm, ⟨0, _⟩ => ⟨S32768x512, .f32⟩
  | .hbm, ⟨1, _⟩ => ⟨S1000x512, .f32⟩
  | .hbm, ⟨2, _⟩ => ⟨S512x1000, .f32⟩
  | .hbm, ⟨3, _⟩ => ⟨S1000x512, .f32⟩
  | .hbm, ⟨4, _⟩ => ⟨S_, .f32⟩
  | .hbm, ⟨5, _⟩ => ⟨S1000, .f32⟩
  | .hbm, ⟨6, _⟩ => ⟨S1000, .f32⟩
  | .hbm, ⟨7, _⟩ => ⟨S_, .f32⟩
  | .hbm, ⟨8, _⟩ => ⟨S1000, .f32⟩
  | .hbm, ⟨9, _⟩ => ⟨S1000, .f32⟩
  | .hbm, ⟨10, _⟩ => ⟨S1x1000, .f32⟩
  | .hbm, ⟨11, _⟩ => ⟨S32768x1000, .f32⟩
  | .local _ .vmem, ⟨0, _⟩ => ⟨S2048x512, .f32⟩
  | .local _ .vmem, ⟨1, _⟩ => ⟨S2048x512, .f32⟩
  | .local _ .vmem, ⟨2, _⟩ => ⟨S512x1000, .f32⟩
  | .local _ .vmem, ⟨3, _⟩ => ⟨S1x1000, .f32⟩
  | .local _ .vmem, ⟨4, _⟩ => ⟨S2048x1000, .f32⟩
  | .local _ .vmem, ⟨5, _⟩ => ⟨S2048x1000, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S1000x512_S512x1000_1_0 : S1000x512.Transposes [1, 0] S512x1000
  reducesTo_S1000x512_S1000_d1 : S1000x512.ReducesTo [1] S1000
  h_S_ : 0 < S_.numel
  bcast_S_S1000 : S_.BroadcastsInDim S1000 (![] : Fin 0 → Fin S1000.rank)
  shapeCasts_S1000_S1x1000 : S1000.ShapeCasts S1x1000
  inb_S2048x512_S2048x512_0_0 : ∀ a, (![0, 0] : Fin 2 → Nat) a + S2048x512.size a ≤ S2048x512.size a
  h_S2048x512 : 0 < S2048x512.numel
  inb_S512x1000_S512x1000_0_0 : ∀ a, (![0, 0] : Fin 2 → Nat) a + S512x1000.size a ≤ S512x1000.size a
  h_S512x1000 : 0 < S512x1000.numel
  shapeCasts_S512x1000_S512x1000 : S512x1000.ShapeCasts S512x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  bitsLt_bf16_f32 : FTy.bits .bf16 < FTy.bits .f32
  reduces_S2048x512_S2048 : S2048x512.Reduces [1] S2048
  shapeCasts_S2048_S2048x1 : S2048.ShapeCasts S2048x1
  broadcasts_S2048x1_S2048x1000 : S2048x1.Broadcasts S2048x1000
  broadcasts_S1x1000_S2048x1000 : S1x1000.Broadcasts S2048x1000
  inb_S2048x1000_S2048x1000_0_0 : ∀ a, (![0, 0] : Fin 2 → Nat) a + S2048x1000.size a ≤ S2048x1000.size a
  h_S2048x1000 : 0 < S2048x1000.numel
  dot_S2048x512_S512x1000_S2048x1000_1_0_0_1_n_n_wf : DotDims.WF S2048x512 S512x1000 S2048x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1000.size a ≤ S512x1000.size a
  hwx0_1 : ∀ i : grid0.Coords, EltTy.bits .f32 = 32 ∨ (Rect.block (s := S512x1000) S512x1000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1000.size a ≤ S32768x1000.size a
  hwx0_3 : ∀ i : grid0.Coords, EltTy.bits .f32 = 32 ∨ (Rect.block (s := S32768x1000) S2048x1000.size (cc0_transform_3 i) (hinb0_3 i)).WholeWords (EltTy.packing .f32)

variable [Facts₀]

def dot_S2048x512_S512x1000_S2048x1000_1_0_0_1_n_n : DotDims S2048x512 S512x1000 S2048x1000 where
  lhsContracting := [1]
  rhsContracting := [0]
  lhsNonContracting := [0]
  rhsNonContracting := [1]
  lhsBatch := []
  rhsBatch := []
  wf := dot_S2048x512_S512x1000_S2048x1000_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x512 : Shape := ⟨2, ![32768, 512]⟩
abbrev S1000x512 : Shape := ⟨2, ![1000, 512]⟩
abbrev S32768x1000 : Shape := ⟨2, ![32768, 1000]⟩
abbrev S_ : Shape := ⟨0, ![]⟩
abbrev S32768 : Shape := ⟨1, ![32768]⟩
abbrev S1000 : Shape := ⟨1, ![1000]⟩
abbrev S32768x1 : Shape := ⟨2, ![32768, 1]⟩
abbrev S1x1000 : Shape := ⟨2, ![1, 1000]⟩

abbrev nBuf : Space → Nat
  | .hbm => 17
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S1000x512, .f32⟩
  | .hbm, ⟨2, _⟩ => ⟨S32768x1000, .f32⟩
  | .hbm, ⟨3, _⟩ => ⟨S32768x512, .f32⟩
  | .hbm, ⟨4, _⟩ => ⟨S_, .f32⟩
  | .hbm, ⟨5, _⟩ => ⟨S32768, .f32⟩
  | .hbm, ⟨6, _⟩ => ⟨S32768, .f32⟩
  | .hbm, ⟨7, _⟩ => ⟨S1000x512, .f32⟩
  | .hbm, ⟨8, _⟩ => ⟨S_, .f32⟩
  | .hbm, ⟨9, _⟩ => ⟨S1000, .f32⟩
  | .hbm, ⟨10, _⟩ => ⟨S1000, .f32⟩
  | .hbm, ⟨11, _⟩ => ⟨S32768x1, .f32⟩
  | .hbm, ⟨12, _⟩ => ⟨S1x1000, .f32⟩
  | .hbm, ⟨13, _⟩ => ⟨S32768x1000, .f32⟩
  | .hbm, ⟨14, _⟩ => ⟨S32768x1000, .f32⟩
  | .hbm, ⟨15, _⟩ => ⟨S32768x1000, .f32⟩
  | .hbm, ⟨16, _⟩ => ⟨S32768x1000, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_call1_v0 : Ref sig .tc := ⟨.hbm, 7, rfl⟩
abbrev main_call1_cst : Ref sig .tc := ⟨.hbm, 8, rfl⟩
abbrev main_call1_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]

class Facts₀ : Prop where
  reducesTo_S32768x512_S32768_d1 : S32768x512.ReducesTo [1] S32768
  h_S_ : 0 < S_.numel
  reducesTo_S1000x512_S1000_d1 : S1000x512.ReducesTo [1] S1000
  bcast_S32768_S32768x1_0 : S32768.BroadcastsInDim S32768x1 (![0] : Fin 1 → Fin S32768x1.rank)
  bcast_S1000_S1x1000_1 : S1000.BroadcastsInDim S1x1000 (![1] : Fin 1 → Fin S1x1000.rank)
  bcast_S32768x1_S32768x1000_0_1 : S32768x1.BroadcastsInDim S32768x1000 (![0, 1] : Fin 2 → Fin S32768x1000.rank)
  bcast_S1x1000_S32768x1000_0_1 : S1x1000.BroadcastsInDim S32768x1000 (![0, 1] : Fin 2 → Fin S32768x1000.rank)
  dot_S32768x512_S1000x512_S32768x1000_1_1_0_0_n_n_wf : DotDims.WF S32768x512 S1000x512 S32768x1000 [1] [1] [0] [0] [] []

variable [Facts₀]

def dot_S32768x512_S1000x512_S32768x1000_1_1_0_0_n_n : DotDims S32768x512 S1000x512 S32768x1000 where
  lhsContracting := [1]
  rhsContracting := [1]
  lhsNonContracting := [0]
  rhsNonContracting := [0]
  lhsBatch := []
  rhsBatch := []
  wf := dot_S32768x512_S1000x512_S32768x1000_1_1_0_0_n_n_wf

class Facts : Prop extends Facts₀ where

variable [Facts]
-- ==== Proof.CosineLaw.lean ====
/-
  Cosine similarity of every row of `x` against every row of `w`, written two ways.

  For a row `n` of `x` and a row `c` of `w` put  a = ∑ₖ x[n,k]·w[c,k],  sx = ∑ₖ x[n,k]²,  sw = ∑ₖ w[c,k]².
  One arrangement scales the inner product by the two reciprocal norms one after the other,
      (a · sx^(-1/2)) · (1 / √sw),
  the other divides once by the product of the norms,
      a / (√sx · √sw).
  Where sx and sw are positive reals both are a · (√sx)⁻¹ · (√sw)⁻¹: the reciprocal square root of a positive real
  is the inverse of its root, a quotient by a nonzero real is the product with its reciprocal, and the reciprocal of
  a product of nonzero reals is the product of the reciprocals. The inner product `a` may be any extended real:
  only associativity of the product is used on it. (At sx = 0 the two arrangements differ — the first is
  0 · ⊤ · _ = 0, the second 0 / 0 — which is why positivity of both sums of squares is assumed.)
-/
import Idealize.ShloMosaic.PureOps.Ideal
import Idealize.ShloMosaic.Lib.ValueIdx
import Idealize.ShloMosaic.PureOps.Ideal.Laws

noncomputable section

open scoped BigOperators

namespace Cert.Cosine

open Idealize.ShloMosaic Idealize.ShloMosaic.ValueIdx

/-- The index sets of the three arrays: `x` is 32768 × 512, `w` is 1000 × 512, the table 32768 × 1000. -/
abbrev XIdx := (⟨2, ![32768, 512]⟩ : Shape).Idx
abbrev WIdx := (⟨2, ![1000, 512]⟩ : Shape).Idx
abbrev OIdx := (⟨2, ![32768, 1000]⟩ : Shape).Idx

/-- The inner product of row `n` of `x` with row `c` of `w`. -/
def inner (x : XIdx → EReal) (w : WIdx → EReal) (n : Fin 32768) (c : Fin 1000) : EReal :=
  ∑ k : Fin 512, x (ix2 n k) * w (ix2 c k)

/-- The sum of the squares of row `n` of `x`. -/
def sqX (x : XIdx → EReal) (n : Fin 32768) : EReal := ∑ k : Fin 512, x (ix2 n k) * x (ix2 n k)

/-- The sum of the squares of row `c` of `w`. -/
def sqW (w : WIdx → EReal) (c : Fin 1000) : EReal := ∑ k : Fin 512, w (ix2 c k) * w (ix2 c k)

/-- The table with the two reciprocal norms applied one after the other. -/
def scaled (x : XIdx → EReal) (w : WIdx → EReal) : OIdx → EReal := fun i =>
  (inner x w (i 0) (i 1) * Ideal.rsqrt (sqX x (i 0))) * Ideal.div 1 (Ideal.sqrt (sqW w (i 1)))

/-- The table as one quotient by the product of the norms. -/
def quotient (x : XIdx → EReal) (w : WIdx → EReal) : OIdx → EReal := fun i =>
  Ideal.div (inner x w (i 0) (i 1)) (Ideal.sqrt (sqX x (i 0)) * Ideal.sqrt (sqW w (i 1)))

/-- The host's sum along the rows of `x ∘ x` from the initial value 0, at row `n`: 0 + ∑ₖ x[n,k]², the row's sum of squares. -/
theorem hostRowSum_x (x : FVec Ideal ⟨2, ![32768, 512]⟩ .f32)
    (h : (⟨2, ![32768, 512]⟩ : Shape).ReducesTo [1] ⟨1, ![32768]⟩) (hu : 0 < (⟨0, ![]⟩ : Shape).numel) (n : Fin 32768) :
    Host.reduceAdd (mulf x x) (constant (F := Ideal) ⟨0, ![]⟩ .f32 0x00000000#32) h hu (ix1 n) = sqX x n := by
  simp only [Host.reduceAdd, Ideal.hostReduceAdd_def]
  rw [Ideal.hostReduceAdd_single h (by decide)]
  show Ideal.ofBits .f32 0x00000000#32 + _ = _
  rw [Ideal.ofBits_zero_f32, zero_add]
  unfold sqX
  refine Finset.sum_congr rfl fun k _ => ?_
  show x _ * x _ = _
  exact congrArg (fun j => x j * x j)
    (funext fun a => Fin.ext (by match a with | ⟨0, _⟩ => rfl | ⟨1, _⟩ => rfl))

/-- The same for a row `c` of `w`. -/
theorem hostRowSum_w (w : FVec Ideal ⟨2, ![1000, 512]⟩ .f32)
    (h : (⟨2, ![1000, 512]⟩ : Shape).ReducesTo [1] ⟨1, ![1000]⟩) (hu : 0 < (⟨0, ![]⟩ : Shape).numel) (c : Fin 1000) :
    Host.reduceAdd (mulf w w) (constant (F := Ideal) ⟨0, ![]⟩ .f32 0x00000000#32) h hu (ix1 c) = sqW w c := by
  simp only [Host.reduceAdd, Ideal.hostReduceAdd_def]
  rw [Ideal.hostReduceAdd_single h (by decide)]
  show Ideal.ofBits .f32 0x00000000#32 + _ = _
  rw [Ideal.ofBits_zero_f32, zero_add]
  unfold sqW
  refine Finset.sum_congr rfl fun k _ => ?_
  show w _ * w _ = _
  exact congrArg (fun j => w j * w j)
    (funext fun a => Fin.ext (by match a with | ⟨0, _⟩ => rfl | ⟨1, _⟩ => rfl))

/-- A finite sum of products of reals, taken in the extended reals, is the real sum. -/
theorem sum_coe_mul {ι : Type} [Fintype ι] (f g : ι → ℝ) :
    ∑ k : ι, ((f k : EReal) * (g k : EReal)) = ((∑ k : ι, f k * g k : ℝ) : EReal) := by
  have key : ∀ s : Finset ι, ∑ k ∈ s, ((f k : EReal) * (g k : EReal)) = ((∑ k ∈ s, f k * g k : ℝ) : EReal) := by
    intro s
    classical
    induction s using Finset.induction_on with
    | empty => simp
    | insert a s ha ih => rw [Finset.sum_insert ha, Finset.sum_insert ha, ih, EReal.coe_add, EReal.coe_mul]
  exact key Finset.univ

/-- The law on one entry: with positive real sums of squares the two arrangements agree, whatever the inner product. -/
theorem scale_eq_quotient (a : EReal) (sx sw : ℝ) (hx : 0 < sx) (hw : 0 < sw) :
    (a * Ideal.rsqrt (sx : EReal)) * Ideal.div 1 (Ideal.sqrt (sw : EReal))
      = Ideal.div a (Ideal.sqrt (sx : EReal) * Ideal.sqrt (sw : EReal)) := by
  have rx : 0 < Real.sqrt sx := Real.sqrt_pos.2 hx
  have rw' : 0 < Real.sqrt sw := Real.sqrt_pos.2 hw
  simp only [Ideal.rsqrt_coe, Ideal.sqrt_coe, if_neg (not_lt.2 hx.le), if_neg hx.ne', if_neg (not_lt.2 hw.le)]
  rw [← EReal.coe_mul, Ideal.div_coe rw'.ne', Ideal.div_coe (mul_pos rx rw').ne', one_mul, mul_assoc, ← EReal.coe_mul]
  rw [one_div, one_div, mul_inv]

/-- The two tables are equal when every entry of `x` and `w` is a real and every row of each has a positive sum of squares. -/
theorem scaled_eq_quotient (x : XIdx → EReal) (w : WIdx → EReal)
    (hx : ∀ i, ∃ r : ℝ, x i = (r : EReal)) (hw : ∀ i, ∃ r : ℝ, w i = (r : EReal))
    (hxp : ∀ n, 0 < sqX x n) (hwp : ∀ c, 0 < sqW w c) : scaled x w = quotient x w := by
  choose xr hxr using hx
  choose wr hwr using hw
  funext i
  have ex : sqX x (i 0) = ((∑ k : Fin 512, xr (ix2 (i 0) k) * xr (ix2 (i 0) k) : ℝ) : EReal) := by
    unfold sqX; simp only [hxr]; exact sum_coe_mul _ _
  have ew : sqW w (i 1) = ((∑ k : Fin 512, wr (ix2 (i 1) k) * wr (ix2 (i 1) k) : ℝ) : EReal) := by
    unfold sqW; simp only [hwr]; exact sum_coe_mul _ _
  have px := hxp (i 0)
  have pw := hwp (i 1)
  rw [ex] at px
  rw [ew] at pw
  show (inner x w (i 0) (i 1) * Ideal.rsqrt (sqX x (i 0))) * Ideal.div 1 (Ideal.sqrt (sqW w (i 1)))
    = Ideal.div (inner x w (i 0) (i 1)) (Ideal.sqrt (sqX x (i 0)) * Ideal.sqrt (sqW w (i 1)))
  rw [ex, ew]
  exact scale_eq_quotient _ _ _ (EReal.coe_pos.1 px) (EReal.coe_pos.1 pw)

end Cert.Cosine

end
-- ==== Proof.PreFacts.lean ====
/-
  What the precondition says of the two input arrays, read at the exact values.

  The precondition is the conjunction of four tests, each a conjunction over all entries (or rows):
  |x| < +∞ entrywise, |w| < +∞ entrywise, and, row by row, 0 < ∑ₖ x[n,k]² and 0 < ∑ₖ w[c,k]².
  An extended real whose absolute value max(a, −a) is below +∞ is neither infinity, so it is a real; a
  host row sum from the initial value 0 is the plain sum. So the precondition gives: every entry of
  `x` and of `w` is a real, and every row of each has a positive sum of squares — the hypotheses of the law
  between the two arrangements of the cosine table.
-/
import proofs.«124472_j58076547777061_1_alg».proof.Pre_finite_inputs
import proofs.«124472_j58076547777061_1_alg».proof.Proof.CosineLaw
import Idealize.ShloMosaic.Lib.ReduceAll
import Idealize.ShloMosaic.Lib.ValueIdx
import Idealize.ShloMosaic.PureOps.Ideal.Laws

noncomputable section

open scoped BigOperators

namespace Cert.Cosine

open Idealize.ShloMosaic Idealize.ShloMosaic.ValueIdx Cert.Pre_finite_inputs

variable [Cert.Pre_finite_inputs.Facts]

/-- The rank-0 shape has one index. -/
instance : Subsingleton Cert.Pre_finite_inputs.S_.Idx := ⟨fun a b => funext fun d => d.elim0⟩

/-- An extended real whose absolute value is below +∞ is a real number. -/
theorem real_of_abs_lt_inf (a : EReal)
    (h : FloatOps.cmpf (F := Ideal) (φ := .f32) .olt (FloatOps.hostAbsf a) (FloatOps.ofBits .f32 0x7F800000#32) = 1#1) :
    ∃ r : ℝ, a = (r : EReal) := by
  have hinf : Ideal.ofBits .f32 0x7F800000#32 = ⊤ := by simp [Ideal.ofBits, Ideal.ieee]
  rw [Ideal.cmpf_def, Ideal.hostAbsf_def, Ideal.absf_def, Ideal.ofBits_def, hinf] at h
  induction a using EReal.rec with
  | bot => simp [Ideal.cmp] at h
  | coe r => exact ⟨r, rfl⟩
  | top => simp [Ideal.cmp] at h

/-- The "greater than" test answering 1 says the second operand is below the first. -/
theorem lt_of_ogt (a b : EReal) (h : Ideal.cmp .ogt a b = 1#1) : b < a := by
  by_contra hn
  simp [Ideal.cmp, hn] at h

/-- The precondition, read: both arrays hold reals, and every row of each has a positive sum of squares. -/
theorem pre_facts (x : FVec Ideal S32768x512 .f32) (w : FVec Ideal S1000x512 .f32)
    (h : Cert.Pre_finite_inputs.fn (F := Ideal) x w = fun _ => 1#1) :
    (∀ i, ∃ r : ℝ, x i = (r : EReal)) ∧ (∀ i, ∃ r : ℝ, w i = (r : EReal))
      ∧ (∀ n, 0 < sqX x n) ∧ (∀ c, 0 < sqW w c) := by
  have h0 := congrFun h ix0
  dsimp only [Cert.Pre_finite_inputs.fn, Cert.Pre_finite_inputs.fn_part1] at h0
  obtain ⟨h123, h4⟩ := IntOp.andi_eq_one.1 (show IntOp.andi _ _ = 1#1 from h0)
  obtain ⟨h12, h3⟩ := IntOp.andi_eq_one.1 (show IntOp.andi _ _ = 1#1 from h123)
  obtain ⟨h1, h2⟩ := IntOp.andi_eq_one.1 (show IntOp.andi _ _ = 1#1 from h12)
  refine ⟨fun i => ?_, fun i => ?_, fun n => ?_, fun c => ?_⟩
  · exact real_of_abs_lt_inf (x i) (Host.reduce_andi_all _ _ _ _ ix0 h1 i)
  · exact real_of_abs_lt_inf (w i) (Host.reduce_andi_all _ _ _ _ ix0 h2 i)
  · have e := Host.reduce_andi_all _ _ _ _ ix0 h3 (ix1 n)
    rw [cmpf_apply, Ideal.cmpf_def, hostRowSum_x] at e
    exact lt_of_eq_of_lt Ideal.ofBits_zero_f32.symm (lt_of_ogt _ _ e)
  · have e := Host.reduce_andi_all _ _ _ _ ix0 h4 (ix1 c)
    rw [cmpf_apply, Ideal.cmpf_def, hostRowSum_w] at e
    exact lt_of_eq_of_lt Ideal.ofBits_zero_f32.symm (lt_of_ogt _ _ e)

end Cert.Cosine

end
-- ==== Proof.RefQuotient.lean ====
/-
  The reference's result, read at an index, is the cosine table written as one quotient.

  At entry (n, c) the reference divides the inner product ∑ₖ x[n,k]·w[c,k] by the product of two broadcast
  norms, √(0 + ∑ₖ x[n,k]²) along the rows and √(0 + ∑ₖ w[c,k]²) along the columns: each broadcast reads
  its operand at the one coordinate it keeps, and each host sum from the initial value 0 is the plain sum.
-/
import proofs.«124472_j58076547777061_1_alg».proof.Proof.Gen.ReferenceIdeal.Read
import proofs.«124472_j58076547777061_1_alg».proof.Proof.CosineLaw

noncomputable section

open scoped BigOperators

namespace Cert.ReferenceIdeal.RefValue

open Cert.ReferenceIdeal Cert.ReferenceIdeal.Read Idealize.ShloMosaic Idealize.ShloMosaic.ValueIdx

/-- The reference's last stage is the quotient form of the cosine table. -/
theorem result_eq_quotient (x : (⟨S32768x512, .f32⟩ : BufTy).Contents (Elt Ideal)) (w : (⟨S1000x512, .f32⟩ : BufTy).Contents (Elt Ideal)) :
    val_main_v8 (F := Ideal) x w = Cert.Cosine.quotient x w := by
  funext i
  have eL : ∀ k : Fin 512, lidx_main_v0 i k = ix2 (i 0) k := fun k =>
    funext fun a => Fin.ext (by match a with | ⟨0, _⟩ => rfl | ⟨1, _⟩ => rfl)
  have eR : ∀ k : Fin 512, ridx_main_v0 i k = ix2 (i 1) k := fun k =>
    funext fun a => Fin.ext (by match a with | ⟨0, _⟩ => rfl | ⟨1, _⟩ => rfl)
  have eX : ∀ k : Fin 512, idx_main_call0_v1 (idx_main_v3 (idx_main_v5 i)) k = ix2 (i 0) k := fun k =>
    funext fun a => Fin.ext (by match a with | ⟨0, _⟩ => rfl | ⟨1, _⟩ => rfl)
  have eW : ∀ k : Fin 512, idx_main_call1_v1 (idx_main_v4 (idx_main_v6 i)) k = ix2 (i 1) k := fun k =>
    funext fun a => Fin.ext (by match a with | ⟨0, _⟩ => rfl | ⟨1, _⟩ => rfl)
  rw [val_main_v8_apply, val_main_v0_apply, val_main_v7_apply, val_main_v5_apply, val_main_v3_apply, val_main_v1_apply,
    val_main_call0_v1_apply, val_main_v6_apply, val_main_v4_apply, val_main_v2_apply, val_main_call1_v1_apply]
  simp only [val_main_call0_v0_apply, val_main_call1_v0_apply, val_main_call0_cst_apply, val_main_call1_cst_apply,
    eL, eR, eX, eW, Ideal.hostDivf_def, Ideal.mulf_def, Ideal.hostUnary_sqrt_def, Ideal.ofBits_def,
    Ideal.ofBits_zero_f32, zero_add]
  rfl

end Cert.ReferenceIdeal.RefValue

end
-- ==== Proof.BodyValue.lean ====
/-
  The value the kernel body stores, read at one entry of its 2048 × 1000 block.

  From a 2048 × 512 block `a` of rows of `x`, the 512 × 1000 transposed weights `b` and the 1 × 1000 row `r`
  of reciprocal weight norms, the body stores at (p, q)
      ((∑ₖ a[p,k]·b[k,q]) · rsqrt(∑ₖ a[p,k]²)) · r[0,q]:
  the matrix product into a zero accumulator is the plain sum over the contracted axis (the narrowing of the
  operands is the identity on exact values), the lane reduction from the neutral accumulator is the row's sum,
  the sum's column [2048] → [2048, 1] is read at its row and broadcast along the row, and the one row `r` is
  broadcast down the rows.
-/
import proofs.«124472_j58076547777061_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«124472_j58076547777061_1_alg».proof.Proof.CosineLaw

noncomputable section

open scoped BigOperators

namespace Cert.KernelIdeal.Body

open Cert.KernelIdeal Cert.KernelIdeal.Gen Idealize.ShloMosaic Idealize.ShloMosaic.ValueIdx

/-! ## The matrix product's operand indices: the left operand contracts its axis 1, the right its axis 0 -/

theorem lhs_axis0 (i : S2048x1000.Idx) (q : dot_S2048x512_S512x1000_S2048x1000_1_0_0_1_n_n.contr.Idx) :
    (dot_S2048x512_S512x1000_S2048x1000_1_0_0_1_n_n.lhsIdx i q 0).val = (i 0).val := by
  unfold DotDims.lhsIdx
  rw [dif_neg (show ¬(0 : Fin S2048x512.rank) ∈ dot_S2048x512_S512x1000_S2048x1000_1_0_0_1_n_n.lhsBatch by decide), dif_pos (show (0 : Fin S2048x512.rank) ∈ dot_S2048x512_S512x1000_S2048x1000_1_0_0_1_n_n.lhsNonContracting by decide)]
  rfl
theorem lhs_axis1 (i : S2048x1000.Idx) (q : dot_S2048x512_S512x1000_S2048x1000_1_0_0_1_n_n.contr.Idx) :
    (dot_S2048x512_S512x1000_S2048x1000_1_0_0_1_n_n.lhsIdx i q 1).val = (q ⟨0, by decide⟩).val :=
  dot_S2048x512_S512x1000_S2048x1000_1_0_0_1_n_n.lhsIdx_val_of_single rfl i q
theorem rhs_axis0 (i : S2048x1000.Idx) (q : dot_S2048x512_S512x1000_S2048x1000_1_0_0_1_n_n.contr.Idx) :
    (dot_S2048x512_S512x1000_S2048x1000_1_0_0_1_n_n.rhsIdx i q 0).val = (q ⟨0, by decide⟩).val :=
  dot_S2048x512_S512x1000_S2048x1000_1_0_0_1_n_n.rhsIdx_val_of_single rfl i q
theorem rhs_axis1 (i : S2048x1000.Idx) (q : dot_S2048x512_S512x1000_S2048x1000_1_0_0_1_n_n.contr.Idx) :
    (dot_S2048x512_S512x1000_S2048x1000_1_0_0_1_n_n.rhsIdx i q 1).val = (i 1).val := by
  unfold DotDims.rhsIdx
  rw [dif_neg (show ¬(1 : Fin S512x1000.rank) ∈ dot_S2048x512_S512x1000_S2048x1000_1_0_0_1_n_n.rhsBatch by decide), dif_pos (show (1 : Fin S512x1000.rank) ∈ dot_S2048x512_S512x1000_S2048x1000_1_0_0_1_n_n.rhsNonContracting by decide)]
  rfl

/-- The product of a 2048 × 512 and a 512 × 1000 matrix into a zero accumulator, at (p, q): ∑ₖ a[p,k]·b[k,q]. -/
theorem matmul_at (a : FVec Ideal S2048x512 .bf16) (b : FVec Ideal S512x1000 .bf16) (i : S2048x1000.Idx) :
    matmul dot_S2048x512_S512x1000_S2048x1000_1_0_0_1_n_n none a b (constant (F := Ideal) S2048x1000 .f32 0x00000000#32) i
      = ∑ k : Fin 512, a (ix2 (i 0) k) * b (ix2 k (i 1)) := by
  simp only [matmul]
  rw [Ideal.matmul_constant_zero_apply, ← Equiv.sum_comp (contrEquiv1 dot_S2048x512_S512x1000_S2048x1000_1_0_0_1_n_n 512 rfl rfl).symm]
  refine Finset.sum_congr rfl fun k _ => ?_
  have hk := contrEquiv1_symm_val dot_S2048x512_S512x1000_S2048x1000_1_0_0_1_n_n 512 rfl rfl k
  have el : dot_S2048x512_S512x1000_S2048x1000_1_0_0_1_n_n.lhsIdx i ((contrEquiv1 dot_S2048x512_S512x1000_S2048x1000_1_0_0_1_n_n 512 rfl rfl).symm k) = ix2 (i 0) k := funext fun ax => Fin.ext (by
    match ax with
    | ⟨0, _⟩ => exact lhs_axis0 _ _
    | ⟨1, _⟩ => exact (lhs_axis1 _ _).trans hk)
  have er : dot_S2048x512_S512x1000_S2048x1000_1_0_0_1_n_n.rhsIdx i ((contrEquiv1 dot_S2048x512_S512x1000_S2048x1000_1_0_0_1_n_n 512 rfl rfl).symm k) = ix2 k (i 1) := funext fun ax => Fin.ext (by
    match ax with
    | ⟨0, _⟩ => exact (rhs_axis0 _ _).trans hk
    | ⟨1, _⟩ => exact rhs_axis1 _ _)
  rw [el, er]
  rfl

/-- The lane reduction of a 2048 × 512 array from the neutral accumulator, at row `p`: the row's sum. -/
theorem rowsum_at (v : FVec Ideal S2048x512 .f32) (p : Fin 2048) :
    multiReduction .add [1] S2048 v 0x00000000#32 reduces_S2048x512_S2048 (.inl rfl) rfl (ix1 p)
      = ∑ k : Fin 512, v (ix2 p k) := by
  refine (Ideal.multiReduction_add_single v 0x00000000#32 reduces_S2048x512_S2048 (.inl rfl) rfl (ix1 p)).trans ?_
  refine Finset.sum_congr rfl fun k _ => ?_
  exact congrArg v (funext fun a => Fin.ext (by match a with | ⟨0, _⟩ => rfl | ⟨1, _⟩ => rfl))

/-- A length-2048 vector cast to a 2048 × 1 column reads, at (p, u), the vector at p. -/
theorem column_at (v : FVec Ideal S2048 .f32) (p : Fin 2048) (u : Fin 1) :
    shapeCast S2048x1 v shapeCasts_S2048_S2048x1 (ix2 p u) = v (ix1 p) :=
  shapeCast_apply v shapeCasts_S2048_S2048x1 _ _ (by
    have hu : u.val = 0 := by omega
    rw [Shape.rowMajor_val_two, Shape.rowMajor_val_one]
    show p.val = p.val * 1 + u.val
    omega)

/-- A 2048 × 1 column broadcast along the rows reads, at (p, q), the column at (p, 0). -/
theorem along_rows_at (v : FVec Ideal S2048x1 .f32) (p : Fin 2048) (q : Fin 1000) :
    broadcastTo S2048x1000 v broadcasts_S2048x1_S2048x1000 (ix2 p q) = v (ix2 p (0 : Fin 1)) := by
  refine broadcastTo_apply v broadcasts_S2048x1_S2048x1000 (ix2 p q) (ix2 p (0 : Fin 1)) fun ax => ?_
  match ax with
  | ⟨0, _⟩ => show p.val = if (2048 : Nat) = 1 then 0 else p.val; rw [if_neg (by decide)]
  | ⟨1, _⟩ => show 0 = if (1 : Nat) = 1 then 0 else q.val; rw [if_pos rfl]

/-- A 1 × 1000 row broadcast down the rows reads, at (p, q), the row at (0, q). -/
theorem down_rows_at (v : FVec Ideal S1x1000 .f32) (p : Fin 2048) (q : Fin 1000) :
    broadcastTo S2048x1000 v broadcasts_S1x1000_S2048x1000 (ix2 p q) = v (ix2 (0 : Fin 1) q) :=
  broadcastTo_1b_ab_apply v broadcasts_S1x1000_S2048x1000 p q

/-- The reciprocal square root is taken entry by entry. -/
theorem rsqrt_at {s : Shape} (v : FVec Ideal s .f32) (i : s.Idx) : rsqrt v i = Ideal.rsqrt (v i) := rfl

/-- THE STORED VALUE at (p, q). -/
theorem payload_at (a : FVec Ideal S2048x512 .f32) (b : FVec Ideal S512x1000 .f32) (r : FVec Ideal S1x1000 .f32)
    (p : Fin 2048) (q : Fin 1000) :
    k0_pay1 (F := Ideal) a b r (ix2 p q)
      = ((∑ k : Fin 512, a (ix2 p k) * b (ix2 k q)) * Ideal.rsqrt (∑ k : Fin 512, a (ix2 p k) * a (ix2 p k)))
          * r (ix2 (0 : Fin 1) q) := by
  unfold k0_pay1
  rw [mulf_apply, mulf_apply, down_rows_at, along_rows_at, rsqrt_at, column_at, rowsum_at, matmul_at]
  simp only [shapeCast_self, truncf_apply, mulf_apply]

/-- The stored value at (p, q) is entry (n, c) of the scaled cosine table of `x` and `w`, when row `p` of the block is row
    `n` of `x`, column `q` of the transposed weights is row `c` of `w`, and r[0,q] is that row's reciprocal norm. -/
theorem payload_is_scaled (x : Cert.Cosine.XIdx → EReal) (w : Cert.Cosine.WIdx → EReal)
    (a : FVec Ideal S2048x512 .f32) (b : FVec Ideal S512x1000 .f32) (r : FVec Ideal S1x1000 .f32)
    (n : Fin 32768) (c : Fin 1000) (p : Fin 2048) (q : Fin 1000)
    (ha : ∀ k : Fin 512, a (ix2 p k) = x (ix2 n k)) (hb : ∀ k : Fin 512, b (ix2 k q) = w (ix2 c k))
    (hr : r (ix2 (0 : Fin 1) q) = Ideal.div 1 (Ideal.sqrt (Cert.Cosine.sqW w c))) :
    k0_pay1 (F := Ideal) a b r (ix2 p q) = Cert.Cosine.scaled x w (ix2 n c) := by
  rw [payload_at, hr]
  simp only [ha, hb]
  rfl

end Cert.KernelIdeal.Body

end
-- ==== Proof.EntryArrays.lean ====
/-
  The two arrays the host writes before the kernel's region, as the region finds them, read at an index.

  `main_v0` is the transpose of the weights: at (k, q) it holds w[q,k]. `main_v4` is the row of reciprocal
  weight norms: at (0, q) it holds 1 / √(∑ₖ w[q,k]²) — the constant 1 broadcast over the thousand rows of `w`,
  divided entry by entry by the square root of the host's row sum of `w ∘ w` from 0, and the length-1000 result
  laid out as one row.
-/
import proofs.«124472_j58076547777061_1_alg».proof.Proof.Gen.KernelIdeal.Frame
import proofs.«124472_j58076547777061_1_alg».proof.Proof.CosineLaw
import Idealize.ShloMosaic.Lib.StableHlo.Run
import Idealize.ShloMosaic.Lib.ValueLayout
import Idealize.ShloMosaic.PureOps.IdealRules

noncomputable section

open scoped BigOperators

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The weights as launched on core `c`. -/
abbrev wArr (c : Dev nD) : FVec Ideal S1000x512 .f32 := m ((c : Thread nD τ).loc main_arg1)

/-- `main_v0` at region entry is the transpose of the weights. -/
theorem wT_eq (c : Dev nD) :
    (V m c main_v0 : S512x1000.Idx → EReal) = transpose S512x1000 [1, 0] (wArr m c) transposes_S1000x512_S512x1000_1_0 := by
  dsimp only [Gen.V]
  simp only [Gen.hostOps0, Gen.hostOps0_1, Gen.hostOps0_2, List.flatten_cons, List.flatten_nil, List.append_nil,
    List.cons_append, List.nil_append]
  after_results <;> rfl

/-- `main_v4` at region entry is the row of reciprocal norms of the weights' rows. -/
theorem invw_eq (c : Dev nD) :
    (V m c main_v4 : S1x1000.Idx → EReal)
      = shapeCast S1x1000 (Host.divf (F := Ideal) (broadcastInDim S1000 ![] bcast_S_S1000 (constant (F := Ideal) S_ .f32 0x3F800000#32))
          (Host.sqrt (F := Ideal) (Host.reduceAdd (F := Ideal) (mulf (wArr m c) (wArr m c)) (constant (F := Ideal) S_ .f32 0x00000000#32)
            reducesTo_S1000x512_S1000_d1 h_S_))) shapeCasts_S1000_S1x1000 := by
  dsimp only [Gen.V]
  simp only [Gen.hostOps0, Gen.hostOps0_1, Gen.hostOps0_2, List.flatten_cons, List.flatten_nil, List.append_nil,
    List.cons_append, List.nil_append]
  after_results <;> rfl

/-- The transposed weights at (k, q): w[q,k]. -/
theorem wT_at (c : Dev nD) (k : Fin 512) (q : Fin 1000) :
    (V m c main_v0 : S512x1000.Idx → EReal) (ix2 k q) = wArr m c (ix2 q k) := by
  rw [wT_eq]
  exact transpose_ix2_apply (wArr m c) transposes_S1000x512_S512x1000_1_0 k q

/-- The reciprocal-norm row at (u, q): 1 / √(∑ₖ w[q,k]²). -/
theorem invw_at (c : Dev nD) (u : Fin 1) (q : Fin 1000) :
    (V m c main_v4 : S1x1000.Idx → EReal) (ix2 u q) = Ideal.div 1 (Ideal.sqrt (Cert.Cosine.sqW (wArr m c) q)) := by
  rw [invw_eq, shapeCast_a_1a_apply]
  show Ideal.div (Ideal.ofBits .f32 0x3F800000#32)
    (Ideal.sqrt (Host.reduceAdd (F := Ideal) (mulf (wArr m c) (wArr m c)) (constant (F := Ideal) S_ .f32 0x00000000#32)
      reducesTo_S1000x512_S1000_d1 h_S_ (ix1 q))) = _
  rw [Cert.Cosine.hostRowSum_w, show Ideal.ofBits .f32 0x3F800000#32 = 1 from IdealRules.sign_bit.ideal_onePat .f32]

end Cert.KernelIdeal.Entry

end
-- ==== Proof.TableValue.lean ====
/-
  The kernel's output array after the run is the scaled cosine table of the two argument arrays.

  The grid has 16 points; point `t` stages rows 2048·t … 2048·t + 2047 of `x`, the whole transposed weights and the
  whole row of reciprocal norms, and writes back rows 2048·t … 2048·t + 2047 of the 32768 × 1000 output. So entry
  (p, q) of what point `t` writes is the stored value for row n = 2048·t + p of `x` and row q of `w`, that is entry
  (n, q) of the table; the sixteen row bands tile the output (row n lies in band n / 2048), so the output ends
  holding the whole table.
-/
import proofs.«124472_j58076547777061_1_alg».proof.Proof.Gen.KernelIdeal.Value
import proofs.«124472_j58076547777061_1_alg».proof.Proof.BodyValue
import proofs.«124472_j58076547777061_1_alg».proof.Proof.EntryArrays
import Idealize.ShloMosaic.Lib.Pipeline.Value

noncomputable section

open scoped BigOperators

namespace Cert.KernelIdeal.Table

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The rows of `x` as launched on core `c`. -/
abbrev xArr (c : Dev nD) : FVec Ideal S32768x512 .f32 := m ((c : Thread nD τ).loc main_arg0)

/-- The table on core `c`: entry (n, q) is ((∑ₖ x[n,k]·w[q,k]) · rsqrt(∑ₖ x[n,k]²)) · (1 / √(∑ₖ w[q,k]²)). -/
abbrev table (c : Dev nD) : S32768x1000.Idx → EReal := Cert.Cosine.scaled (xArr m c) (Entry.wArr m c)

theorem origin : (![0, 0] : Fin 2 → Nat) = fun _ => 0 := funext fun a => by fin_cases a <;> rfl

/-- The index maps over the grid: the `x` window and the output window are at row band `t`; the weights and the
    reciprocal norms are staged whole. -/
theorem bands : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every row band is some point's. -/
theorem band_onto : ∀ q0 : Fin 16, ∃ t : Fin cfg0.N, t.val = q0.val :=
  fun q0 => ⟨⟨q0.val, by rw [show cfg0.N = 16 from N_0]; exact q0.isLt⟩, rfl⟩

/-! ## The staged blocks, typed by their literal shapes -/

abbrev xblk (c : Dev nD) (t : Fin cfg0.N) : FVec Ideal S2048x512 .f32 := iblk m c 0 t
abbrev wTblk (c : Dev nD) (t : Fin cfg0.N) : FVec Ideal S512x1000 .f32 := iblk m c 1 t
abbrev rblk (c : Dev nD) (t : Fin cfg0.N) : FVec Ideal S1x1000 .f32 := iblk m c 2 t

/-- Row `p` of the `x` block at point `t` is row 2048·t + p of `x`. -/
theorem xblk_at (c : Dev nD) (t : Fin cfg0.N) (p : Fin 2048) (k : Fin 512) (n : Fin 32768) (hn : n.val = t.val * 2048 + p.val) :
    xblk m c t (ix2 p k) = xArr m c (ix2 n k) := by
  show V m c main_arg0 (((cfg0.win 0).blk t).view.emb (ix2 p k)) = _
  rw [V_main_arg0]
  refine congrArg (xArr m c) ?_
  obtain ⟨e0, e1, -⟩ := bands t
  funext a; apply Fin.ext
  match a with
  | ⟨0, _⟩ => show win0_0.index t (0 : Fin 2) * 2048 + 1 * p.val = n.val; omega
  | ⟨1, _⟩ => show win0_0.index t (1 : Fin 2) * 512 + 1 * k.val = k.val; omega

/-- The staged transposed weights at (k, q): w[q,k]. -/
theorem wTblk_at (c : Dev nD) (t : Fin cfg0.N) (k : Fin 512) (q : Fin 1000) :
    wTblk m c t (ix2 k q) = Entry.wArr m c (ix2 q k) := by
  show (V m c main_v0 : S512x1000.Idx → EReal) (((cfg0.win 1).blk t).view.emb (ix2 k q)) = _
  have e : ((cfg0.win 1).blk t).view.emb (ix2 k q) = ix2 k q := by
    obtain ⟨-, -, e2, e3, -⟩ := bands t
    funext a; apply Fin.ext
    match a with
    | ⟨0, _⟩ => show win0_1.index t (0 : Fin 2) * 512 + 1 * k.val = k.val; omega
    | ⟨1, _⟩ => show win0_1.index t (1 : Fin 2) * 1000 + 1 * q.val = q.val; omega
  rw [e]
  exact Entry.wT_at m c k q

/-- The staged row of reciprocal norms at (0, q): 1 / √(∑ₖ w[q,k]²). -/
theorem rblk_at (c : Dev nD) (t : Fin cfg0.N) (q : Fin 1000) :
    rblk m c t (ix2 (0 : Fin 1) q) = Ideal.div 1 (Ideal.sqrt (Cert.Cosine.sqW (Entry.wArr m c) q)) := by
  show (V m c main_v4 : S1x1000.Idx → EReal) (((cfg0.win 2).blk t).view.emb (ix2 (0 : Fin 1) q)) = _
  have e : ((cfg0.win 2).blk t).view.emb (ix2 (0 : Fin 1) q) = ix2 (0 : Fin 1) q := by
    obtain ⟨-, -, -, -, e4, e5, -⟩ := bands t
    funext a; apply Fin.ext
    match a with
    | ⟨0, _⟩ => show win0_2.index t (0 : Fin 2) * 1 + 1 * 0 = 0; omega
    | ⟨1, _⟩ => show win0_2.index t (1 : Fin 2) * 1000 + 1 * q.val = q.val; omega
  rw [e]
  exact Entry.invw_at m c 0 q

/-! ## From blocks to the array -/

/-- WHAT POINT `t` WRITES BACK is band `t` of the table. -/
theorem flushed_eq (c : Dev nD) (t : Fin cfg0.N) :
    (dats m 0 c).flushed 3 t = ((cfg0.win 3).blk t).view.read (Elt Ideal) (table m c) := by
  rw [Value.flushed3]
  unfold out0_3
  rw [View.canon_unit_zero origin]
  simp only [View.ld_unit_zero (S := S2048x512) origin, View.ld_unit_zero (S := S512x1000) origin,
    View.ld_unit_zero (S := S1x1000) origin]
  show (k0_pay1 (F := Ideal) (xblk m c t) (wTblk m c t) (rblk m c t) : S2048x1000.Idx → EReal)
    = fun j : S2048x1000.Idx => table m c (((cfg0.win 3).blk t).view.emb j)
  funext j
  obtain ⟨p, q, rfl⟩ : ∃ (p : Fin 2048) (q : Fin 1000), j = ix2 p q := ⟨j 0, j 1, eq_ix2 j⟩
  obtain ⟨-, -, -, -, -, -, e6, e7⟩ := bands t
  have ht : t.val < 16 := lt_of_lt_of_eq t.isLt (show cfg0.N = 16 from N_0)
  have hp : p.val < 2048 := p.isLt
  have hemb : ((cfg0.win 3).blk t).view.emb (ix2 p q) = ix2 (⟨t.val * 2048 + p.val, by omega⟩ : Fin 32768) q := by
    funext a; apply Fin.ext
    match a with
    | ⟨0, _⟩ => show win0_3.index t (0 : Fin 2) * 2048 + 1 * p.val = t.val * 2048 + p.val; omega
    | ⟨1, _⟩ => show win0_3.index t (1 : Fin 2) * 1000 + 1 * q.val = q.val; omega
  rw [hemb]
  exact Body.payload_is_scaled (xArr m c) (Entry.wArr m c) (xblk m c t) (wTblk m c t) (rblk m c t)
    (⟨t.val * 2048 + p.val, by omega⟩ : Fin 32768) q p q
    (fun k => xblk_at m c t p k _ rfl) (fun k => wTblk_at m c t k q) (rblk_at m c t q)

/-- An index of the output is in point `t`'s block iff each coordinate is in the block's range on its axis. -/
theorem mem_band (t : Fin cfg0.N) (i : S32768x1000.Idx) :
    i ∈ ((cfg0.win 3).blk t).view.set ↔ ∀ a : Fin 2, win0_3.index t a * S2048x1000.size a ≤ (i a).val ∧ (i a).val < win0_3.index t a * S2048x1000.size a + S2048x1000.size a := by
  show i ∈ ((View.whole main_v5).slice (win0_3.rect t)).set ↔ _
  rw [View.set_slice_whole, Rect.mem_set_unit]
  exact Iff.rfl

/-- The sixteen row bands tile the output: row n lies in band n / 2048. -/
theorem covered (i : S32768x1000.Idx) :
    ∃ t : Fin cfg0.N, (cfg0.win 3).flush t = true ∧ i ∈ ((cfg0.win 3).blk t).view.set := by
  have hi0 : (i 0).val < 32768 := (i 0).isLt
  have hi1 : (i 1).val < 1000 := (i 1).isLt
  obtain ⟨t, ht⟩ := band_onto ⟨(i 0).val / 2048, by omega⟩
  have ht' : t.val = (i 0).val / 2048 := ht
  obtain ⟨-, -, -, -, -, -, e6, e7⟩ := bands t
  refine ⟨t, flush0_3 t, ?_⟩
  rw [mem_band]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 1000 ≤ (i 1).val ∧ (i 1).val < win0_3.index t (1 : Fin 2) * 1000 + 1000; omega

/-- THE ARRAY after the run is the table. -/
theorem final (c : Dev nD) : (dats m 0 c).arrAt 3 cfg0.N = table m c :=
  (dats m 0 c).arrAt_eq_of_cover 3 (table m c) (fun t _ => flushed_eq m c t) covered

/-! ## The run, read -/

/-- Every weakly fair execution of the kernel's program terminates with the output array at the table of the argument
    arrays, and the argument arrays unchanged. -/
theorem run : θ_run defs (onTc (τ := τ) (main (F := Ideal))) ⟨m, fun _ => 0, ρ⟩ fun r => ∀ c : Dev nD,
      r.2.mem ((c : Thread nD τ).loc main_v5) = table m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Table

end
-- ==== Proof.lean ====
/-
  Cosine similarity of each of 32768 rows of `x` with each of 1000 rows of `w`: the kernel against the reference.

  The kernel computes, in sixteen row bands of 2048, (x·wᵀ)[n,c] · rsqrt(∑ₖ x[n,k]²) · (1 / √(∑ₖ w[c,k]²)), the last factor
  prepared on the host; the reference computes (x·wᵀ)[n,c] / (√(∑ₖ x[n,k]²) · √(∑ₖ w[c,k]²)). Under the precondition every
  entry is a real number and every row of `x` and of `w` has a positive sum of squares (where a row is zero the reference's
  quotient is 0/0, and the two programs' values differ there: 0 · ∞ · _ = 0 against 0/0), so each reciprocal square root
  is the inverse of a positive root and both sides are the inner product times the two inverse roots. The kernel's run
  with its output array named is `Table.run` (the generated blockwise value leg, closed by hand over the stored value);
  the reference's run is generated, and its result read at an index is the quotient form (`RefValue.result_eq_quotient`);
  the law between the two forms is `Cosine.scaled_eq_quotient`, fed by `Cosine.pre_facts`. The three frames are the
  generated ones; the idealization rewrote nothing, so there is nothing to preserve.
-/
import proofs.«124472_j58076547777061_1_alg».proof.Defs
import proofs.«124472_j58076547777061_1_alg».proof.Proof.Gen.Kernel
import proofs.«124472_j58076547777061_1_alg».proof.Proof.Gen.Kernel.Skeleton
import proofs.«124472_j58076547777061_1_alg».proof.Proof.Gen.Kernel.Launch
import proofs.«124472_j58076547777061_1_alg».proof.Proof.Gen.Kernel.Points
import proofs.«124472_j58076547777061_1_alg».proof.Proof.Gen.Kernel.Frame
import proofs.«124472_j58076547777061_1_alg».proof.Proof.Gen.KernelIdeal
import proofs.«124472_j58076547777061_1_alg».proof.Proof.Gen.KernelIdeal.Skeleton
import proofs.«124472_j58076547777061_1_alg».proof.Proof.Gen.KernelIdeal.Launch
import proofs.«124472_j58076547777061_1_alg».proof.Proof.Gen.KernelIdeal.Points
import proofs.«124472_j58076547777061_1_alg».proof.Proof.Gen.KernelIdeal.Frame
import proofs.«124472_j58076547777061_1_alg».proof.Proof.Gen.ReferenceIdeal
import proofs.«124472_j58076547777061_1_alg».proof.Proof.Gen.Pre_finite_inputs
import proofs.«124472_j58076547777061_1_alg».proof.Proof.Gen.KernelIdeal.Value
import proofs.«124472_j58076547777061_1_alg».proof.Proof.Gen.ReferenceIdeal.Run
import proofs.«124472_j58076547777061_1_alg».proof.Proof.Gen.ReferenceIdeal.Read
import proofs.«124472_j58076547777061_1_alg».proof.Proof.CosineLaw
import proofs.«124472_j58076547777061_1_alg».proof.Proof.PreFacts
import proofs.«124472_j58076547777061_1_alg».proof.Proof.RefQuotient
import proofs.«124472_j58076547777061_1_alg».proof.Proof.TableValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the scaled cosine table of the arguments: the kernel by its run read block by block, the
    reference because its quotient form is the scaled form where every entry is real and every row has a positive
    sum of squares. -/
theorem algebraic : Cert.algebraic_KernelIdeal_ReferenceIdeal := by
  intro m ρ m' ρ' hpre hagree
  refine ⟨fun c => Cert.KernelIdeal.Table.table m c, Cert.KernelIdeal.Table.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v8_eq _ _).trans ?_
  refine (Cert.ReferenceIdeal.RefValue.result_eq_quotient _ _).trans ?_
  obtain ⟨hx, hw, hxp, hwp⟩ := Cert.Cosine.pre_facts _ _ (hpre c)
  exact (Cert.Cosine.scaled_eq_quotient _ _ hx hw hxp hwp).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
